-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S2x600000 : Shape := ⟨2, ![2, 600000]⟩
abbrev S50000x128 : Shape := ⟨2, ![50000, 128]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg9 : FVec F S128x16 .f32) (main_arg10 : FVec F S16 .f32) (main_v33 : IVec S_ 1) : IVec S_ 1 :=
  let main_v34 : FVec F S128x16 .f32 := Host.absf main_arg9
  let main_cst_12 : FVec F S_ .f32 := constant S_ .f32 0x7F800000#32
  let main_v35 : FVec F S128x16 .f32 := broadcastInDim S128x16 ![] bcast_S_S128x16 main_cst_12
  let main_v36 : IVec S128x16 1 := cmpf .olt main_v34 main_v35
  let main_c_13 : IVec S_ 1 := constantI S_ 1 1#1
  let main_v37 : IVec S_ 1 := (fun x v => Host.reduce IntOp.andi x v reducesTo_S128x16_S_d0_1 h_S_) main_v36 main_c_13
  let main_v38 : IVec S_ 1 := andi main_v33 main_v37
  let main_v39 : FVec F S16 .f32 := Host.absf main_arg10
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  main_v43

def fn_part1 {F : FTy → Type} [FloatOps F] (main_arg6 : FVec F S128x128 .f32) (main_arg7 : FVec F S128 .f32) (main_arg8 : FVec F S128x128 .f32) (main_arg9 : FVec F S128x16 .f32) (main_arg10 : FVec F S16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_v33

def fn {F : FTy → Type} [FloatOps F] (main_arg0 : IVec S50000 32) (main_arg1 : IVec S2x600000 32) (main_arg2 : FVec F S50000x128 .f32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128x16 .f32) (main_arg10 : FVec F S16 .f32) : IVec S_ 1 :=
  let main_v0 : FVec F S50000x128 .f32 := Host.absf main_arg2
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S50000 : Shape := ⟨1, ![50000]⟩
abbrev S2x600000 : Shape := ⟨2, ![2, 600000]⟩
abbrev S50000x128 : Shape := ⟨2, ![50000, 128]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x600000 : Shape := ⟨2, ![1, 600000]⟩
abbrev S600000 : Shape := ⟨1, ![600000]⟩
abbrev S_ : Shape := ⟨0, ![]⟩
abbrev S50000x1 : Shape := ⟨2, ![50000, 1]⟩
abbrev S600000x1 : Shape := ⟨2, ![600000, 1]⟩
abbrev S600000x128 : Shape := ⟨2, ![600000, 128]⟩
abbrev S1x128 : Shape := ⟨2, ![1, 128]⟩
abbrev S2000x128 : Shape := ⟨2, ![2000, 128]⟩
abbrev S1x16 : Shape := ⟨2, ![1, 16]⟩
abbrev S50000x16 : Shape := ⟨2, ![50000, 16]⟩
abbrev S2000x16 : Shape := ⟨2, ![2000, 16]⟩

abbrev nBuf : Space → Nat
  | .hbm => 72
  | .vmem => 20
  | .smem => 0
  | _ => 0

abbrev bufTy : (tb : Table) → Fin (tcTables nBuf tb) → BufTy
  | .hbm, ⟨0, _⟩ => ⟨S50000, .i32⟩
  | .hbm, ⟨1, _⟩ => ⟨S2x600000, .i32⟩
  | .hbm, ⟨2, _⟩ => ⟨S50000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x16, .f32⟩
  | .hbm, ⟨10, _⟩ => ⟨S16, .f32⟩
  | .hbm, ⟨11, _⟩ => ⟨S1x600000, .i32⟩
  | .hbm, ⟨12, _⟩ => ⟨S600000, .i32⟩
  | .hbm, ⟨13, _⟩ => ⟨S1x600000, .i32⟩
  | .hbm, ⟨14, _⟩ => ⟨S600000, .i32⟩
  | .hbm, ⟨15, _⟩ => ⟨S_, .i32⟩
  | .hbm, ⟨16, _⟩ => ⟨S50000, .i32⟩
  | .hbm, ⟨17, _⟩ => ⟨S50000, .i1⟩
  | .hbm, ⟨18, _⟩ => ⟨S_, .i32⟩
  | .hbm, ⟨19, _⟩ => ⟨S50000, .i32⟩
  | .hbm, ⟨20, _⟩ => ⟨S50000, .i32⟩
  | .hbm, ⟨21, _⟩ => ⟨S50000, .i32⟩
  | .hbm, ⟨22, _⟩ => ⟨S50000x1, .i32⟩
  | .hbm, ⟨23, _⟩ => ⟨S50000x128, .f32⟩
  | .hbm, ⟨24, _⟩ => ⟨S_, .f32⟩
  | .hbm, ⟨25, _⟩ => ⟨S600000, .f32⟩
  | .hbm, ⟨26, _⟩ => ⟨S_, .f32⟩
  | .hbm, ⟨27, _⟩ => ⟨S50000, .f32⟩
  | .hbm, ⟨28, _⟩ => ⟨S600000x1, .i32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S_, .i32⟩
  | .hbm, ⟨38, _⟩ => ⟨S600000, .i32⟩
  | .hbm, ⟨39, _⟩ => ⟨S600000, .i1⟩
  | .hbm, ⟨40, _⟩ => ⟨S_, .i32⟩
  | .hbm, ⟨41, _⟩ => ⟨S600000, .i32⟩
  | .hbm, ⟨42, _⟩ => ⟨S600000, .i32⟩
  | .hbm, ⟨43, _⟩ => ⟨S600000, .i32⟩
  | .hbm, ⟨44, _⟩ => ⟨S600000x1, .i32⟩
  | .hbm, ⟨45, _⟩ => ⟨S600000x128, .f32⟩
  | .hbm, ⟨46, _⟩ => ⟨S_, .f32⟩
  | .hbm, ⟨47, _⟩ => ⟨S50000x128, .f32⟩
  | .hbm, ⟨48, _⟩ => ⟨S600000x1, .i32⟩
  | .hbm, ⟨49, _⟩ => ⟨S50000x128, .f32⟩
  | .hbm, ⟨50, _⟩ => ⟨S50000x128, .f32⟩
  | .hbm, ⟨51, _⟩ => ⟨S50000x128, .f32⟩
  | .hbm, ⟨52, _⟩ => ⟨S1x128, .f32⟩
  | .hbm, ⟨53, _⟩ => ⟨S50000x128, .f32⟩
  | .hbm, ⟨54, _⟩ => ⟨S_, .i32⟩
  | .hbm, ⟨55, _⟩ => ⟨S600000, .i32⟩
  | .hbm, ⟨56, _⟩ => ⟨S600000, .i1⟩
  | .hbm, ⟨57, _⟩ => ⟨S_, .i32⟩
  | .hbm, ⟨58, _⟩ => ⟨S600000, .i32⟩
  | .hbm, ⟨59, _⟩ => ⟨S600000, .i32⟩
  | .hbm, ⟨60, _⟩ => ⟨S600000, .i32⟩
  | .hbm, ⟨61, _⟩ => ⟨S600000x1, .i32⟩
  | .hbm, ⟨62, _⟩ => ⟨S600000x128, .f32⟩
  | .hbm, ⟨63, _⟩ => ⟨S_, .f32⟩
  | .hbm, ⟨64, _⟩ => ⟨S50000x128, .f32⟩
  | .hbm, ⟨65, _⟩ => ⟨S600000x1, .i32⟩
  | .hbm, ⟨66, _⟩ => ⟨S50000x128, .f32⟩
  | .hbm, ⟨67, _⟩ => ⟨S50000x128, .f32⟩
  | .hbm, ⟨68, _⟩ => ⟨S50000x128, .f32⟩
  | .hbm, ⟨69, _⟩ => ⟨S1x128, .f32⟩
  | .hbm, ⟨70, _⟩ => ⟨S1x16, .f32⟩
  | .hbm, ⟨71, _⟩ => ⟨S50000x16, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S128x16, .f32⟩
  | .local _ .vmem, ⟨17, _⟩ => ⟨S1x16, .f32⟩
  | .local _ .vmem, ⟨18, _⟩ => ⟨S2000x16, .f32⟩
  | .local _ .vmem, ⟨19, _⟩ => ⟨S2000x16, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_cst_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_c_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_c_8 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_9 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x16 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x16 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S50000 : S_.BroadcastsInDim S50000 (![] : Fin 0 → Fin S50000.rank)
  bcast_S50000_S50000x1_0 : S50000.BroadcastsInDim S50000x1 (![0] : Fin 1 → Fin S50000x1.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S16_S1x16 : S16.ShapeCasts S1x16
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S2000x16_S2000x16_0_0 : ∀ a, (![0, 0] : Fin 2 → Nat) a + S2000x16.size a ≤ S2000x16.size a
  h_S2000x16 : 0 < S2000x16.numel
  gather_S50000x128_S50000x1_S50000x128_1_0_n_n_0_1_1128_wf : GatherDims.WF S50000x128 S50000x1 S50000x128 [1] [0] [] [0] [] 1 ![1, 128]
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x128_S128x128_S2000x128_1_0_0_1_n_n_wf : DotDims.WF S2000x128 S128x128 S2000x128 [1] [0] [0] [1] [] []
  dot_S2000x128_S128x16_S2000x16_1_0_0_1_n_n_wf : DotDims.WF S2000x128 S128x16 S2000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x16.size a ≤ S128x16.size a
  hwx1_5 : ∀ i : grid1.Coords, EltTy.bits .f32 = 32 ∨ (Rect.block (s := S128x16) S128x16.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x16.size a ≤ S1x16.size a
  hwx1_6 : ∀ i : grid1.Coords, EltTy.bits .f32 = 32 ∨ (Rect.block (s := S1x16) S1x16.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x16.size a ≤ S50000x16.size a
  hwx1_7 : ∀ i : grid1.Coords, EltTy.bits .f32 = 32 ∨ (Rect.block (s := S50000x16) S2000x16.size (cc1_transform_7 i) (hinb1_7 i)).WholeWords (EltTy.packing .f32)

variable [Facts₀]

def gather_S50000x128_S50000x1_S50000x128_1_0_n_n_0_1_1128 : GatherDims S50000x128 S50000x1 S50000x128 where
  offsetDims := [1]
  collapsedSliceDims := [0]
  operandBatchingDims := []
  startIndicesBatchingDims := []
  startIndexMap := [0]
  indexVectorDim := 1
  sliceSizes := ![1, 128]
  wf := gather_S50000x128_S50000x1_S50000x128_1_0_n_n_0_1_1128_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x16_S2000x16_1_0_0_1_n_n : DotDims S2000x128 S128x16 S2000x16 where
  lhsContracting := [1]
  rhsContracting := [0]
  lhsNonContracting := [0]
  rhsNonContracting := [1]
  lhsBatch := []
  rhsBatch := []
  wf := dot_S2000x128_S128x16_S2000x16_1_0_0_1_n_n_wf

abbrev win0_0 : Pipeline.Window sig grid0 :=
  Pipeline.Window.ofSpec (Memref.whole main_v31) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v33) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v45) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S128x16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v47) S1x16.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v48) S2000x16.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000 : Shape := ⟨1, ![50000]⟩
abbrev S2x600000 : Shape := ⟨2, ![2, 600000]⟩
abbrev S50000x128 : Shape := ⟨2, ![50000, 128]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x600000 : Shape := ⟨2, ![1, 600000]⟩
abbrev S600000 : Shape := ⟨1, ![600000]⟩
abbrev S_ : Shape := ⟨0, ![]⟩
abbrev S50000x1 : Shape := ⟨2, ![50000, 1]⟩
abbrev S600000x1 : Shape := ⟨2, ![600000, 1]⟩
abbrev S600000x128 : Shape := ⟨2, ![600000, 128]⟩
abbrev S1x128 : Shape := ⟨2, ![1, 128]⟩
abbrev S50000x16 : Shape := ⟨2, ![50000, 16]⟩
abbrev S1x16 : Shape := ⟨2, ![1, 16]⟩

abbrev nBuf : Space → Nat
  | .hbm => 93
  | .vmem => 0
  | .smem => 0
  | _ => 0

abbrev bufTy : (tb : Table) → Fin (tcTables nBuf tb) → BufTy
  | .hbm, ⟨0, _⟩ => ⟨S50000, .i32⟩
  | .hbm, ⟨1, _⟩ => ⟨S2x600000, .i32⟩
  | .hbm, ⟨2, _⟩ => ⟨S50000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x16, .f32⟩
  | .hbm, ⟨10, _⟩ => ⟨S16, .f32⟩
  | .hbm, ⟨11, _⟩ => ⟨S1x600000, .i32⟩
  | .hbm, ⟨12, _⟩ => ⟨S600000, .i32⟩
  | .hbm, ⟨13, _⟩ => ⟨S1x600000, .i32⟩
  | .hbm, ⟨14, _⟩ => ⟨S600000, .i32⟩
  | .hbm, ⟨15, _⟩ => ⟨S_, .i32⟩
  | .hbm, ⟨16, _⟩ => ⟨S50000, .i32⟩
  | .hbm, ⟨17, _⟩ => ⟨S50000, .i1⟩
  | .hbm, ⟨18, _⟩ => ⟨S_, .i32⟩
  | .hbm, ⟨19, _⟩ => ⟨S50000, .i32⟩
  | .hbm, ⟨20, _⟩ => ⟨S50000, .i32⟩
  | .hbm, ⟨21, _⟩ => ⟨S50000, .i32⟩
  | .hbm, ⟨22, _⟩ => ⟨S50000x1, .i32⟩
  | .hbm, ⟨23, _⟩ => ⟨S50000x128, .f32⟩
  | .hbm, ⟨24, _⟩ => ⟨S_, .i32⟩
  | .hbm, ⟨25, _⟩ => ⟨S600000, .i32⟩
  | .hbm, ⟨26, _⟩ => ⟨S600000, .i1⟩
  | .hbm, ⟨27, _⟩ => ⟨S_, .i32⟩
  | .hbm, ⟨28, _⟩ => ⟨S600000, .i32⟩
  | .hbm, ⟨29, _⟩ => ⟨S600000, .i32⟩
  | .hbm, ⟨30, _⟩ => ⟨S600000, .i32⟩
  | .hbm, ⟨31, _⟩ => ⟨S600000x1, .i32⟩
  | .hbm, ⟨32, _⟩ => ⟨S600000x128, .f32⟩
  | .hbm, ⟨33, _⟩ => ⟨S_, .f32⟩
  | .hbm, ⟨34, _⟩ => ⟨S50000x128, .f32⟩
  | .hbm, ⟨35, _⟩ => ⟨S600000x1, .i32⟩
  | .hbm, ⟨36, _⟩ => ⟨S50000x128, .f32⟩
  | .hbm, ⟨37, _⟩ => ⟨S_, .f32⟩
  | .hbm, ⟨38, _⟩ => ⟨S600000, .f32⟩
  | .hbm, ⟨39, _⟩ => ⟨S_, .f32⟩
  | .hbm, ⟨40, _⟩ => ⟨S50000, .f32⟩
  | .hbm, ⟨41, _⟩ => ⟨S600000x1, .i32⟩
  | .hbm, ⟨42, _⟩ => ⟨S50000, .f32⟩
  | .hbm, ⟨43, _⟩ => ⟨S_, .f32⟩
  | .hbm, ⟨44, _⟩ => ⟨S50000, .f32⟩
  | .hbm, ⟨45, _⟩ => ⟨S50000, .f32⟩
  | .hbm, ⟨46, _⟩ => ⟨S50000x1, .f32⟩
  | .hbm, ⟨47, _⟩ => ⟨S50000x128, .f32⟩
  | .hbm, ⟨48, _⟩ => ⟨S50000x128, .f32⟩
  | .hbm, ⟨49, _⟩ => ⟨S50000x128, .f32⟩
  | .hbm, ⟨50, _⟩ => ⟨S1x128, .f32⟩
  | .hbm, ⟨51, _⟩ => ⟨S50000x128, .f32⟩
  | .hbm, ⟨52, _⟩ => ⟨S50000x128, .f32⟩
  | .hbm, ⟨53, _⟩ => ⟨S50000x128, .f32⟩
  | .hbm, ⟨54, _⟩ => ⟨S50000x128, .f32⟩
  | .hbm, ⟨55, _⟩ => ⟨S_, .f32⟩
  | .hbm, ⟨56, _⟩ => ⟨S50000x128, .f32⟩
  | .hbm, ⟨57, _⟩ => ⟨S50000x128, .f32⟩
  | .hbm, ⟨58, _⟩ => ⟨S_, .i32⟩
  | .hbm, ⟨59, _⟩ => ⟨S600000, .i32⟩
  | .hbm, ⟨60, _⟩ => ⟨S600000, .i1⟩
  | .hbm, ⟨61, _⟩ => ⟨S_, .i32⟩
  | .hbm, ⟨62, _⟩ => ⟨S600000, .i32⟩
  | .hbm, ⟨63, _⟩ => ⟨S600000, .i32⟩
  | .hbm, ⟨64, _⟩ => ⟨S600000, .i32⟩
  | .hbm, ⟨65, _⟩ => ⟨S600000x1, .i32⟩
  | .hbm, ⟨66, _⟩ => ⟨S600000x128, .f32⟩
  | .hbm, ⟨67, _⟩ => ⟨S_, .f32⟩
  | .hbm, ⟨68, _⟩ => ⟨S50000x128, .f32⟩
  | .hbm, ⟨69, _⟩ => ⟨S600000x1, .i32⟩
  | .hbm, ⟨70, _⟩ => ⟨S50000x128, .f32⟩
  | .hbm, ⟨71, _⟩ => ⟨S_, .f32⟩
  | .hbm, ⟨72, _⟩ => ⟨S600000, .f32⟩
  | .hbm, ⟨73, _⟩ => ⟨S_, .f32⟩
  | .hbm, ⟨74, _⟩ => ⟨S50000, .f32⟩
  | .hbm, ⟨75, _⟩ => ⟨S600000x1, .i32⟩
  | .hbm, ⟨76, _⟩ => ⟨S50000, .f32⟩
  | .hbm, ⟨77, _⟩ => ⟨S_, .f32⟩
  | .hbm, ⟨78, _⟩ => ⟨S50000, .f32⟩
  | .hbm, ⟨79, _⟩ => ⟨S50000, .f32⟩
  | .hbm, ⟨80, _⟩ => ⟨S50000x1, .f32⟩
  | .hbm, ⟨81, _⟩ => ⟨S50000x128, .f32⟩
  | .hbm, ⟨82, _⟩ => ⟨S50000x128, .f32⟩
  | .hbm, ⟨83, _⟩ => ⟨S50000x128, .f32⟩
  | .hbm, ⟨84, _⟩ => ⟨S1x128, .f32⟩
  | .hbm, ⟨85, _⟩ => ⟨S50000x128, .f32⟩
  | .hbm, ⟨86, _⟩ => ⟨S50000x128, .f32⟩
  | .hbm, ⟨87, _⟩ => ⟨S50000x128, .f32⟩
  | .hbm, ⟨88, _⟩ => ⟨S50000x128, .f32⟩
  | .hbm, ⟨89, _⟩ => ⟨S50000x16, .f32⟩
  | .hbm, ⟨90, _⟩ => ⟨S1x16, .f32⟩
  | .hbm, ⟨91, _⟩ => ⟨S50000x16, .f32⟩
  | .hbm, ⟨92, _⟩ => ⟨S50000x16, .f32⟩
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_cst_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_call0_cst : Ref sig .tc := ⟨.hbm, 55, rfl⟩
abbrev main_call0_v0 : Ref sig .tc := ⟨.hbm, 56, rfl⟩
abbrev main_v36 : Ref sig .tc := ⟨.hbm, 57, rfl⟩
abbrev main_c_6 : Ref sig .tc := ⟨.hbm, 58, rfl⟩
abbrev main_v37 : Ref sig .tc := ⟨.hbm, 59, rfl⟩
abbrev main_v38 : Ref sig .tc := ⟨.hbm, 60, rfl⟩
abbrev main_c_7 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_8 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_9 : Ref sig .tc := ⟨.hbm, 71, rfl⟩
abbrev main_v47 : Ref sig .tc := ⟨.hbm, 72, rfl⟩
abbrev main_cst_10 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_11 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S50000 : S_.BroadcastsInDim S50000 (![] : Fin 0 → Fin S50000.rank)
  bcast_S50000_S50000x1_0 : S50000.BroadcastsInDim S50000x1 (![0] : Fin 1 → Fin S50000x1.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  gather_S50000x128_S50000x1_S50000x128_1_0_n_n_0_1_1128_wf : GatherDims.WF S50000x128 S50000x1 S50000x128 [1] [0] [] [0] [] 1 ![1, 128]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []
  dot_S50000x128_S128x16_S50000x16_1_0_0_1_n_n_wf : DotDims.WF S50000x128 S128x16 S50000x16 [1] [0] [0] [1] [] []

variable [Facts₀]

def gather_S50000x128_S50000x1_S50000x128_1_0_n_n_0_1_1128 : GatherDims S50000x128 S50000x1 S50000x128 where
  offsetDims := [1]
  collapsedSliceDims := [0]
  operandBatchingDims := []
  startIndicesBatchingDims := []
  startIndexMap := [0]
  indexVectorDim := 1
  sliceSizes := ![1, 128]
  wf := gather_S50000x128_S50000x1_S50000x128_1_0_n_n_0_1_1128_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x16_S50000x16_1_0_0_1_n_n : DotDims S50000x128 S128x16 S50000x16 where
  lhsContracting := [1]
  rhsContracting := [0]
  lhsNonContracting := [0]
  rhsNonContracting := [1]
  lhsBatch := []
  rhsBatch := []
  wf := dot_S50000x128_S128x16_S50000x16_1_0_0_1_n_n_wf

class Facts : Prop extends Facts₀ where

variable [Facts]
-- ==== Proof.MeanScale.lean ====
/-
  The mean over incoming edges, two ways. The kernel's program multiplies the summed messages by the reciprocal of
  the clamped in-degree, `s · (1 / max deg 1)`; the reference divides, `s / max deg 1`. On the extended reals the
  quotient by `d` is the product with `d⁻¹` whenever `d ≠ 0` (and `1 / d` is then `d⁻¹`), and `max deg 1 ≥ 1` is never
  zero, whatever `deg` is: so the two agree at every entry, for every summed message, finite or not.
  The column of reciprocals `[50000]` is stretched to `[50000, 1]` and then over the 128 features: entry `(r, j)` of the
  stretched array is entry `r` of the column.
-/
import proofs.«101273_j15917148799635_1_alg».proof.KernelIdeal
import Idealize.ShloMosaic.PureOps.Ideal
import Idealize.ShloMosaic.Lib.IdealHost
import Idealize.ShloMosaic.Lib.ValueIdx
import Idealize.ShloMosaic.Lib.Pipeline.Value

noncomputable section

namespace Cert.Sage.MeanScale

open Cert.KernelIdeal Idealize.ShloMosaic Idealize.ShloMosaic.ValueIdx

/-- Multiplying by the reciprocal of a number that is at least one is dividing by it, on all extended reals. -/
theorem mul_one_div (x d : EReal) (hd : 1 ≤ d) : x * Ideal.div 1 d = Ideal.div x d := by
  have h0 : d ≠ 0 := (lt_of_lt_of_le zero_lt_one hd).ne'
  unfold Ideal.div
  rw [if_neg h0, if_neg h0, one_mul]

/-- A column stretched to `[50000, 1]` and then over 128 features, read at `(r, j)`: the column's entry `r`. -/
theorem stretch_apply {α : Type} (hA : S50000x1.BroadcastsInDim S50000x128 ![0, 1]) (hB : S50000.BroadcastsInDim S50000x1 ![0])
    (x : S50000.Idx → α) (i : S50000x128.Idx) :
    broadcastInDim S50000x128 ![0, 1] hA (broadcastInDim S50000x1 ![0] hB x) i = x (ix1 (i 0)) := by
  refine (broadcastInDim_apply ![0, 1] hA (broadcastInDim S50000x1 ![0] hB x) i (ix2 (i 0) 0) (fun a => by
    match a with
    | ⟨0, _⟩ => show (i 0).val = if (50000 : Nat) = 1 then 0 else (i 0).val; rw [if_neg (by decide)]
    | ⟨1, _⟩ => show 0 = if (1 : Nat) = 1 then 0 else (i 1).val; rw [if_pos rfl])).trans ?_
  exact broadcastInDim_apply ![0] hB x (ix2 (i 0) 0) (ix1 (i 0)) (fun a => by
    match a with
    | ⟨0, _⟩ => show (i 0).val = if (50000 : Nat) = 1 then 0 else (i 0).val; rw [if_neg (by decide)])

/-- Scaling the summed messages by the stretched reciprocal of the clamped in-degree is dividing them by the stretched
    clamped in-degree. -/
theorem scale_eq_div (hA : S50000x1.BroadcastsInDim S50000x128 ![0, 1]) (hB : S50000.BroadcastsInDim S50000x1 ![0])
    (hC : S_.BroadcastsInDim S50000 ![]) (s : FVec Ideal S50000x128 .f32) (deg : FVec Ideal S50000 .f32) :
    mulf s (broadcastInDim S50000x128 ![0, 1] hA (broadcastInDim S50000x1 ![0] hB
        (Host.divf (broadcastInDim S50000 ![] hC (constant (F := Ideal) S_ .f32 0x3F800000#32))
          (maximumf deg (broadcastInDim S50000 ![] hC (constant (F := Ideal) S_ .f32 0x3F800000#32))))))
      = Host.divf s (broadcastInDim S50000x128 ![0, 1] hA (broadcastInDim S50000x1 ![0] hB
          (maximumf deg (broadcastInDim S50000 ![] hC (constant (F := Ideal) S_ .f32 0x3F800000#32))))) := by
  funext i
  show s i * _ = Ideal.div (s i) _
  rw [stretch_apply, stretch_apply]
  show s i * Ideal.div (Ideal.ofBits .f32 0x3F800000#32) (max (deg (ix1 (i 0))) (Ideal.ofBits .f32 0x3F800000#32))
      = Ideal.div (s i) (max (deg (ix1 (i 0))) (Ideal.ofBits .f32 0x3F800000#32))
  rw [Ideal.ofBits_one_f32]
  exact mul_one_div _ _ (le_max_right _ _)

end Cert.Sage.MeanScale

end
-- ==== Proof.KernelHost.lean ====
/-
  The host side of the kernel's program, read against the reference's stages. Before the first pipeline the program
  gathers the embeddings, counts in-degrees, gathers the source rows along the edges, sums them per target node and
  scales by the reciprocal of the clamped in-degree; between the pipelines it does the same to the first layer's output.
  Every one of these arrays is the very term the reference builds from the same arguments (gathers and scatter-adds are
  carried as they stand, never opened), except for the scaling, which the reference writes as a division: there
  `MeanScale.scale_eq_div` joins the two. The bias vectors reach the pipelines reshaped to one row; entry `(0, j)` of the
  row is entry `j` of the vector.
-/
import proofs.«101273_j15917148799635_1_alg».proof.Proof.Gen.KernelIdeal.Frame
import proofs.«101273_j15917148799635_1_alg».proof.Proof.Gen.ReferenceIdeal.Read
import proofs.«101273_j15917148799635_1_alg».proof.Proof.MeanScale
import Idealize.ShloMosaic.Lib.StableHlo.Run
import Idealize.ShloMosaic.Lib.Pipeline.Value
import Idealize.ShloMosaic.Lib.ValueIdx

set_option maxRecDepth 16384

noncomputable section

namespace Cert.Sage.KernelHost

open Cert.KernelIdeal Cert.KernelIdeal.Gen Idealize.ShloMosaic Idealize.ShloMosaic.TcCoe Idealize.SL.Sem
open Idealize.ShloMosaic.StableHlo Idealize.ShloMosaic.ValueIdx
open Cert.ReferenceIdeal.Read (val_main_v1 val_main_v3 val_main_v10 val_main_v20 val_main_v26 val_main_v29 val_main_v36
  val_main_v42 val_main_v44 val_main_v45 val_main_v54 val_main_v55)

variable (m : (ℓ : Loc nD τ sig) → Buf (Elt Ideal) ℓ) (ρ : Dev nD → PrngReg) (c : Dev nD)

/-! ## The arguments, at their literal types -/

abbrev a0 : (⟨S50000, .i32⟩ : BufTy).Contents (Elt Ideal) := m ((c.tc : Thread nD τ).loc main_arg0)
abbrev a1 : (⟨S2x600000, .i32⟩ : BufTy).Contents (Elt Ideal) := m ((c.tc : Thread nD τ).loc main_arg1)
abbrev a2 : (⟨S50000x128, .f32⟩ : BufTy).Contents (Elt Ideal) := m ((c.tc : Thread nD τ).loc main_arg2)
abbrev a3 : (⟨S128x128, .f32⟩ : BufTy).Contents (Elt Ideal) := m ((c.tc : Thread nD τ).loc main_arg3)
abbrev a4 : (⟨S128, .f32⟩ : BufTy).Contents (Elt Ideal) := m ((c.tc : Thread nD τ).loc main_arg4)
abbrev a5 : (⟨S128x128, .f32⟩ : BufTy).Contents (Elt Ideal) := m ((c.tc : Thread nD τ).loc main_arg5)
abbrev a6 : (⟨S128x128, .f32⟩ : BufTy).Contents (Elt Ideal) := m ((c.tc : Thread nD τ).loc main_arg6)
abbrev a7 : (⟨S128, .f32⟩ : BufTy).Contents (Elt Ideal) := m ((c.tc : Thread nD τ).loc main_arg7)
abbrev a8 : (⟨S128x128, .f32⟩ : BufTy).Contents (Elt Ideal) := m ((c.tc : Thread nD τ).loc main_arg8)
abbrev a9 : (⟨S128x16, .f32⟩ : BufTy).Contents (Elt Ideal) := m ((c.tc : Thread nD τ).loc main_arg9)
abbrev a10 : (⟨S16, .f32⟩ : BufTy).Contents (Elt Ideal) := m ((c.tc : Thread nD τ).loc main_arg10)

/-! ## A vector reshaped to one row -/

theorem row128_apply {α : Type} (x : S128.Idx → α) (h : S128.ShapeCasts S1x128) (j : Fin 128) :
    shapeCast S1x128 x h (ix2 0 j) = x (ix1 j) :=
  shapeCast_apply x h (ix2 0 j) (ix1 j) (by
    rw [Shape.rowMajor_val_one, Shape.rowMajor_val_two]
    show j.val = 0 * 128 + j.val; omega)

theorem row16_apply {α : Type} (x : S16.Idx → α) (h : S16.ShapeCasts S1x16) (j : Fin 16) :
    shapeCast S1x16 x h (ix2 0 j) = x (ix1 j) :=
  shapeCast_apply x h (ix2 0 j) (ix1 j) (by
    rw [Shape.rowMajor_val_one, Shape.rowMajor_val_two]
    show j.val = 0 * 16 + j.val; omega)

/-! ## At the first pipeline's entry -/

/-- The gathered embeddings. -/
theorem x0_eq : (V1 m ρ c main_v10 : S50000x128.Idx → EReal) = val_main_v10 (F := Ideal) (a0 m c) (a2 m c) := by
  show StableHlo.after hostOps0 (W0 m ρ c) (Proc.devRef .tc main_v10) = _
  after_results <;> rfl

set_option maxHeartbeats 8000000 in
/-- The first mean aggregation: the kernel's scaled sum is the reference's quotient. -/
theorem agg1_eq : (V1 m ρ c main_v31 : S50000x128.Idx → EReal) = val_main_v29 (F := Ideal) (a0 m c) (a1 m c) (a2 m c) := by
  show StableHlo.after hostOps0 (W0 m ρ c) (Proc.devRef .tc main_v31) = _
  after_results_simp
  refine (MeanScale.scale_eq_div _ _ _ _ _).trans ?_
  rfl

theorem wl1_eq : (V1 m ρ c main_arg3 : S128x128.Idx → EReal) = a3 m c := by
  show StableHlo.after hostOps0 (W0 m ρ c) (Proc.devRef .tc main_arg3) = _
  after_results <;> rfl

theorem wr1_eq : (V1 m ρ c main_arg5 : S128x128.Idx → EReal) = a5 m c := by
  show StableHlo.after hostOps0 (W0 m ρ c) (Proc.devRef .tc main_arg5) = _
  after_results <;> rfl

/-- The first bias row. -/
theorem b1_eq (j : Fin 128) : V1 m ρ c main_v32 (ix2 0 j) = a4 m c (ix1 j) := by
  have e : (V1 m ρ c main_v32 : S1x128.Idx → EReal) = shapeCast S1x128 (a4 m c) shapeCasts_S128_S1x128 := by
    show StableHlo.after hostOps0 (W0 m ρ c) (Proc.devRef .tc main_v32) = _
    after_results <;> rfl
  exact (congrFun e (ix2 0 j)).trans (row128_apply _ _ j)

/-- Edge sources, edge targets and the stretched reciprocal in-degree, as the first stretch leaves them. -/
theorem src_eq : (W1 m ρ c (Proc.devRef .tc main_v1) : S600000.Idx → BitVec 32) = val_main_v1 (F := Ideal) (a1 m c) := by
  show StableHlo.after hostOps0 (W0 m ρ c) (Proc.devRef .tc main_v1) = _
  after_results <;> rfl

theorem dst_eq : (W1 m ρ c (Proc.devRef .tc main_v3) : S600000.Idx → BitVec 32) = val_main_v3 (F := Ideal) (a1 m c) := by
  show StableHlo.after hostOps0 (W0 m ρ c) (Proc.devRef .tc main_v3) = _
  after_results <;> rfl

theorem inv_eq : (W1 m ρ c (Proc.devRef .tc main_v19) : S50000x1.Idx → EReal)
    = broadcastInDim S50000x1 ![0] bcast_S50000_S50000x1_0
        (Host.divf (broadcastInDim S50000 ![] bcast_S_S50000 (constant (F := Ideal) S_ .f32 0x3F800000#32)) (val_main_v26 (F := Ideal) (a1 m c))) := by
  show StableHlo.after hostOps0 (W0 m ρ c) (Proc.devRef .tc main_v19) = _
  after_results <;> rfl

/-- An argument no host operation and no pipeline writes, read at the second pipeline's entry. -/
theorem wl2_eq : (V3 m ρ c main_arg6 : S128x128.Idx → EReal) = a6 m c := by
  show StableHlo.after hostOps1 (W2 m ρ c) (Proc.devRef .tc main_arg6) = _
  after_results
  refine (W2_of_ne m ρ c main_arg6 (by decide)).trans ?_
  show StableHlo.after hostOps0 (W0 m ρ c) (Proc.devRef .tc main_arg6) = _
  after_results <;> rfl

theorem wr2_eq : (V3 m ρ c main_arg8 : S128x128.Idx → EReal) = a8 m c := by
  show StableHlo.after hostOps1 (W2 m ρ c) (Proc.devRef .tc main_arg8) = _
  after_results
  refine (W2_of_ne m ρ c main_arg8 (by decide)).trans ?_
  show StableHlo.after hostOps0 (W0 m ρ c) (Proc.devRef .tc main_arg8) = _
  after_results <;> rfl

theorem wc_eq : (V3 m ρ c main_arg9 : S128x16.Idx → EReal) = a9 m c := by
  show StableHlo.after hostOps1 (W2 m ρ c) (Proc.devRef .tc main_arg9) = _
  after_results
  refine (W2_of_ne m ρ c main_arg9 (by decide)).trans ?_
  show StableHlo.after hostOps0 (W0 m ρ c) (Proc.devRef .tc main_arg9) = _
  after_results <;> rfl

theorem arg7_at2 : (W2 m ρ c (Proc.devRef .tc main_arg7) : S128.Idx → EReal) = a7 m c := by
  refine (W2_of_ne m ρ c main_arg7 (by decide)).trans ?_
  show StableHlo.after hostOps0 (W0 m ρ c) (Proc.devRef .tc main_arg7) = _
  after_results <;> rfl

theorem arg10_at2 : (W2 m ρ c (Proc.devRef .tc main_arg10) : S16.Idx → EReal) = a10 m c := by
  refine (W2_of_ne m ρ c main_arg10 (by decide)).trans ?_
  show StableHlo.after hostOps0 (W0 m ρ c) (Proc.devRef .tc main_arg10) = _
  after_results <;> rfl

/-- The second bias row and the read-out's bias row. -/
theorem b2_eq (j : Fin 128) : V3 m ρ c main_v46 (ix2 0 j) = a7 m c (ix1 j) := by
  have e : (V3 m ρ c main_v46 : S1x128.Idx → EReal) = shapeCast S1x128 (W2 m ρ c (Proc.devRef .tc main_arg7)) shapeCasts_S128_S1x128 := by
    show StableHlo.after hostOps1 (W2 m ρ c) (Proc.devRef .tc main_v46) = _
    after_results <;> rfl
  rw [arg7_at2] at e
  exact (congrFun e (ix2 0 j)).trans (row128_apply _ _ j)

theorem bc_eq (j : Fin 16) : V3 m ρ c main_v47 (ix2 0 j) = a10 m c (ix1 j) := by
  have e : (V3 m ρ c main_v47 : S1x16.Idx → EReal) = shapeCast S1x16 (W2 m ρ c (Proc.devRef .tc main_arg10)) shapeCasts_S16_S1x16 := by
    show StableHlo.after hostOps1 (W2 m ρ c) (Proc.devRef .tc main_v47) = _
    after_results <;> rfl
  rw [arg10_at2] at e
  exact (congrFun e (ix2 0 j)).trans (row16_apply _ _ j)

/-- The first layer's output is not touched by the second stretch: at the second pipeline's entry it is what the first
    pipeline's write-backs left. -/
theorem h1_at3 : (V3 m ρ c main_v33 : S50000x128.Idx → EReal) = (dat0 (F := Ideal) (V1 m ρ) c).arrAt 5 cfg0.N := by
  show StableHlo.after hostOps1 (W2 m ρ c) (Proc.devRef .tc main_v33) = _
  after_results
  exact W2_arr m ρ c 5

set_option maxHeartbeats 8000000 in
/-- The second mean aggregation, as a function of the first layer's output `H`: gather `H` along the edge sources,
    sum per target, and — scaled by the reciprocal in the kernel's program — divide by the clamped in-degree. -/
theorem agg2_eq (H : FVec Ideal S50000x128 .f32) (hH : (dat0 (F := Ideal) (V1 m ρ) c).arrAt 5 cfg0.N = H) :
    (V3 m ρ c main_v45 : S50000x128.Idx → EReal)
      = Host.divf (F := Ideal) (φ := .f32) (Host.scatterAdd scatter_S50000x128_S600000x1_S600000x128_1_0_0_1 (val_main_v44 (F := Ideal)) (val_main_v45 (F := Ideal) (a1 m c))
          (Host.gather gather_S50000x128_S600000x1_S600000x128_1_0_n_n_0_1_1128 H (val_main_v42 (F := Ideal) (a1 m c))))
        (val_main_v54 (F := Ideal) (a1 m c)) := by
  show StableHlo.after hostOps1 (W2 m ρ c) (Proc.devRef .tc main_v45) = _
  after_results
  rw [W2_arr m ρ c 5, hH, W2_of_ne m ρ c main_v1 (by decide), W2_of_ne m ρ c main_v3 (by decide), W2_of_ne m ρ c main_v19 (by decide),
    src_eq, dst_eq, inv_eq]
  refine (MeanScale.scale_eq_div _ _ _ _ _).trans ?_
  rfl

end Cert.Sage.KernelHost

end
-- ==== Proof.Spec.lean ====
/-
  The two dense stages of a two-layer mean-aggregation graph convolution with a linear read-out, as functions of
  whole arrays over the extended reals, entry by entry.

  For a matrix `A` with 128 columns and a weight `W` with 128 rows, `rowDot A W r j` is the entry `(r, j)` of the
  product `A · W`: the sum over `k` of `A[r, k] · W[k, j]`. One layer's pre-activation at `(r, j)` is
  `(agg · Wl)[r, j] + b[j] + (x · Wr)[r, j]`, summed in that order (`combine`). The first stage is its
  positive part (`layer1`); the second stage feeds the pre-activation, with no activation, through the read-out
  `· Wc + bc` (`layer2`). Every entry of either stage depends on its own ROW of the two node-feature operands only,
  so a block of consecutive rows of the result is the same stage applied to the blocks of rows of its operands
  (`layer1_row`, `layer2_row`): this is what lets a kernel that walks the nodes in tiles of rows meet a
  reference that multiplies whole matrices.
-/
import Idealize.ShloMosaic.PureOps.Ideal
import Idealize.ShloMosaic.Lib.ValueIdx

noncomputable section

namespace Cert.Sage

open Idealize.ShloMosaic Idealize.ShloMosaic.ValueIdx

/-- Entry `(r, j)` of the product of a matrix with 128 columns and a weight with 128 rows. -/
def rowDot {R C : Nat} (A : (⟨2, ![R, 128]⟩ : Shape).Idx → EReal) (W : (⟨2, ![128, C]⟩ : Shape).Idx → EReal)
    (r : Fin R) (j : Fin C) : EReal :=
  ∑ k : Fin 128, A (ix2 r k) * W (ix2 k j)

/-- One layer before its activation, at node `r` and feature `j`: the aggregated neighbours through `Wl`, plus the
    bias, plus the node's own features through `Wr`. -/
def combine {R : Nat} (A X : (⟨2, ![R, 128]⟩ : Shape).Idx → EReal) (Wl : (⟨2, ![128, 128]⟩ : Shape).Idx → EReal)
    (b : (⟨1, ![128]⟩ : Shape).Idx → EReal) (Wr : (⟨2, ![128, 128]⟩ : Shape).Idx → EReal) (r : Fin R) (j : Fin 128) : EReal :=
  rowDot A Wl r j + b (ix1 j) + rowDot X Wr r j

/-- The first stage: the positive part of the layer. -/
def layer1 {R : Nat} (A X : (⟨2, ![R, 128]⟩ : Shape).Idx → EReal) (Wl : (⟨2, ![128, 128]⟩ : Shape).Idx → EReal)
    (b : (⟨1, ![128]⟩ : Shape).Idx → EReal) (Wr : (⟨2, ![128, 128]⟩ : Shape).Idx → EReal) :
    (⟨2, ![R, 128]⟩ : Shape).Idx → EReal :=
  fun i => max (combine A X Wl b Wr (i 0) (i 1)) (Ideal.ofBits .f32 0x00000000#32)

/-- The second stage: the layer without activation, then the linear read-out into 16 classes. -/
def layer2 {R : Nat} (A H : (⟨2, ![R, 128]⟩ : Shape).Idx → EReal) (Wl : (⟨2, ![128, 128]⟩ : Shape).Idx → EReal)
    (b : (⟨1, ![128]⟩ : Shape).Idx → EReal) (Wr : (⟨2, ![128, 128]⟩ : Shape).Idx → EReal)
    (Wc : (⟨2, ![128, 16]⟩ : Shape).Idx → EReal) (bc : (⟨1, ![16]⟩ : Shape).Idx → EReal) :
    (⟨2, ![R, 16]⟩ : Shape).Idx → EReal :=
  fun i => (∑ k : Fin 128, combine A H Wl b Wr (i 0) k * Wc (ix2 k (i 1))) + bc (ix1 (i 1))

/-- A row of the product only reads that row of the left factor. -/
theorem rowDot_row {R R' C : Nat} (A : (⟨2, ![R, 128]⟩ : Shape).Idx → EReal) (A' : (⟨2, ![R', 128]⟩ : Shape).Idx → EReal)
    (W : (⟨2, ![128, C]⟩ : Shape).Idx → EReal) (r : Fin R) (r' : Fin R') (j : Fin C)
    (h : ∀ k : Fin 128, A (ix2 r k) = A' (ix2 r' k)) : rowDot A W r j = rowDot A' W r' j := by
  unfold rowDot
  exact Finset.sum_congr rfl fun k _ => by rw [h k]

theorem combine_row {R R' : Nat} (A X : (⟨2, ![R, 128]⟩ : Shape).Idx → EReal) (A' X' : (⟨2, ![R', 128]⟩ : Shape).Idx → EReal)
    (Wl : (⟨2, ![128, 128]⟩ : Shape).Idx → EReal) (b : (⟨1, ![128]⟩ : Shape).Idx → EReal)
    (Wr : (⟨2, ![128, 128]⟩ : Shape).Idx → EReal) (r : Fin R) (r' : Fin R') (j : Fin 128)
    (hA : ∀ k : Fin 128, A (ix2 r k) = A' (ix2 r' k)) (hX : ∀ k : Fin 128, X (ix2 r k) = X' (ix2 r' k)) :
    combine A X Wl b Wr r j = combine A' X' Wl b Wr r' j := by
  unfold combine
  rw [rowDot_row A A' Wl r r' j hA, rowDot_row X X' Wr r r' j hX]

/-- Row `r` of the first stage is row `r'` of the first stage of any operands whose rows `r'` are the rows `r`. -/
theorem layer1_row {R R' : Nat} (A X : (⟨2, ![R, 128]⟩ : Shape).Idx → EReal) (A' X' : (⟨2, ![R', 128]⟩ : Shape).Idx → EReal)
    (Wl : (⟨2, ![128, 128]⟩ : Shape).Idx → EReal) (b : (⟨1, ![128]⟩ : Shape).Idx → EReal)
    (Wr : (⟨2, ![128, 128]⟩ : Shape).Idx → EReal) (r : Fin R) (r' : Fin R') (j : Fin 128)
    (hA : ∀ k : Fin 128, A (ix2 r k) = A' (ix2 r' k)) (hX : ∀ k : Fin 128, X (ix2 r k) = X' (ix2 r' k)) :
    layer1 A X Wl b Wr (ix2 r j) = layer1 A' X' Wl b Wr (ix2 r' j) := by
  show max (combine A X Wl b Wr r j) _ = max (combine A' X' Wl b Wr r' j) _
  rw [combine_row A X A' X' Wl b Wr r r' j hA hX]

/-- The same for the second stage. -/
theorem layer2_row {R R' : Nat} (A H : (⟨2, ![R, 128]⟩ : Shape).Idx → EReal) (A' H' : (⟨2, ![R', 128]⟩ : Shape).Idx → EReal)
    (Wl : (⟨2, ![128, 128]⟩ : Shape).Idx → EReal) (b : (⟨1, ![128]⟩ : Shape).Idx → EReal)
    (Wr : (⟨2, ![128, 128]⟩ : Shape).Idx → EReal) (Wc : (⟨2, ![128, 16]⟩ : Shape).Idx → EReal)
    (bc : (⟨1, ![16]⟩ : Shape).Idx → EReal) (r : Fin R) (r' : Fin R') (j : Fin 16)
    (hA : ∀ k : Fin 128, A (ix2 r k) = A' (ix2 r' k)) (hH : ∀ k : Fin 128, H (ix2 r k) = H' (ix2 r' k)) :
    layer2 A H Wl b Wr Wc bc (ix2 r j) = layer2 A' H' Wl b Wr Wc bc (ix2 r' j) := by
  show (∑ k : Fin 128, combine A H Wl b Wr r k * Wc (ix2 k j)) + bc (ix1 j)
     = (∑ k : Fin 128, combine A' H' Wl b Wr r' k * Wc (ix2 k j)) + bc (ix1 j)
  rw [Finset.sum_congr rfl fun k _ => by rw [combine_row A H A' H' Wl b Wr r r' k hA hH]]

end Cert.Sage

end
-- ==== Proof.KernelPay.lean ====
/-
  What each kernel body computes from the blocks it loads, at the extended reals: the first kernel's stored value is
  the first stage (`Cert.Sage.layer1`) of its two 2000-row blocks, and the second kernel's the second stage
  (`Cert.Sage.layer2`). The narrowing of every matrix operand to bf16 before the matrix unit is the identity on exact
  values; a product into a zero accumulator is the plain sum of products; the bias row `[1, 128]` (or `[1, 16]`) is
  stretched over the rows, so entry `(p, j)` reads its entry `(0, j)`.
-/
import proofs.«101273_j15917148799635_1_alg».proof.Proof.Gen.KernelIdeal.Skeleton
import proofs.«101273_j15917148799635_1_alg».proof.Proof.Spec
import Idealize.ShloMosaic.Lib.Pipeline.Value
import Idealize.ShloMosaic.Lib.ValueIdx
import Idealize.ShloMosaic.PureOps.Ideal.Laws

noncomputable section

namespace Cert.Sage.KernelPay

open Cert.KernelIdeal Cert.KernelIdeal.Gen Idealize.ShloMosaic Idealize.ShloMosaic.ValueIdx Cert.Sage

/-! ## The two matrix products of the bodies, at an entry -/

theorem lhs_mm128_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_mm128_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_mm128_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_mm128_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The matrix unit's product into a zero accumulator, read at an entry, is that entry of the matrix product. -/
theorem mm128_apply {φ₁ φ₂ : FTy} (l : FVec Ideal S2000x128 φ₁) (r : FVec Ideal S128x128 φ₂) (i : S2000x128.Idx) :
    matmul dot_S2000x128_S128x128_S2000x128_1_0_0_1_n_n none l r (constant S2000x128 .f32 0x00000000#32) i = rowDot l r (i 0) (i 1) := by
  simp only [matmul]
  rw [Ideal.matmul_constant_zero_apply, ← Equiv.sum_comp (ValueIdx.contrEquiv1 dot_S2000x128_S128x128_S2000x128_1_0_0_1_n_n 128 rfl rfl).symm]
  unfold rowDot
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx i ((ValueIdx.contrEquiv1 dot_S2000x128_S128x128_S2000x128_1_0_0_1_n_n 128 rfl rfl).symm k) = ix2 (i 0) k := funext fun a => Fin.ext (by
    match a with
    | ⟨0, _⟩ => exact lhs_mm128_0 _ _
    | ⟨1, _⟩ => exact (lhs_mm128_1 _ _).trans hk)
  have er : dot_S2000x128_S128x128_S2000x128_1_0_0_1_n_n.rhsIdx i ((ValueIdx.contrEquiv1 dot_S2000x128_S128x128_S2000x128_1_0_0_1_n_n 128 rfl rfl).symm k) = ix2 k (i 1) := funext fun a => Fin.ext (by
    match a with
    | ⟨0, _⟩ => exact (rhs_mm128_0 _ _).trans hk
    | ⟨1, _⟩ => exact rhs_mm128_1 _ _)
  rw [el, er]
  rfl

theorem lhs_mm16_0 (i : S2000x16.Idx) (q : dot_S2000x128_S128x16_S2000x16_1_0_0_1_n_n.contr.Idx) :
    (dot_S2000x128_S128x16_S2000x16_1_0_0_1_n_n.lhsIdx i q 0).val = (i 0).val := by
  unfold DotDims.lhsIdx
  rw [dif_neg (show ¬(0 : Fin S2000x128.rank) ∈ dot_S2000x128_S128x16_S2000x16_1_0_0_1_n_n.lhsBatch by decide), dif_pos (show (0 : Fin S2000x128.rank) ∈ dot_S2000x128_S128x16_S2000x16_1_0_0_1_n_n.lhsNonContracting by decide)]
  rfl
theorem lhs_mm16_1 (i : S2000x16.Idx) (q : dot_S2000x128_S128x16_S2000x16_1_0_0_1_n_n.contr.Idx) :
    (dot_S2000x128_S128x16_S2000x16_1_0_0_1_n_n.lhsIdx i q 1).val = (q ⟨0, by decide⟩).val :=
  dot_S2000x128_S128x16_S2000x16_1_0_0_1_n_n.lhsIdx_val_of_single rfl i q
theorem rhs_mm16_0 (i : S2000x16.Idx) (q : dot_S2000x128_S128x16_S2000x16_1_0_0_1_n_n.contr.Idx) :
    (dot_S2000x128_S128x16_S2000x16_1_0_0_1_n_n.rhsIdx i q 0).val = (q ⟨0, by decide⟩).val :=
  dot_S2000x128_S128x16_S2000x16_1_0_0_1_n_n.rhsIdx_val_of_single rfl i q
theorem rhs_mm16_1 (i : S2000x16.Idx) (q : dot_S2000x128_S128x16_S2000x16_1_0_0_1_n_n.contr.Idx) :
    (dot_S2000x128_S128x16_S2000x16_1_0_0_1_n_n.rhsIdx i q 1).val = (i 1).val := by
  unfold DotDims.rhsIdx
  rw [dif_neg (show ¬(1 : Fin S128x16.rank) ∈ dot_S2000x128_S128x16_S2000x16_1_0_0_1_n_n.rhsBatch by decide), dif_pos (show (1 : Fin S128x16.rank) ∈ dot_S2000x128_S128x16_S2000x16_1_0_0_1_n_n.rhsNonContracting by decide)]
  rfl

/-- The matrix unit's product into a zero accumulator, read at an entry, is that entry of the matrix product. -/
theorem mm16_apply {φ₁ φ₂ : FTy} (l : FVec Ideal S2000x128 φ₁) (r : FVec Ideal S128x16 φ₂) (i : S2000x16.Idx) :
    matmul dot_S2000x128_S128x16_S2000x16_1_0_0_1_n_n none l r (constant S2000x16 .f32 0x00000000#32) i = rowDot l r (i 0) (i 1) := by
  simp only [matmul]
  rw [Ideal.matmul_constant_zero_apply, ← Equiv.sum_comp (ValueIdx.contrEquiv1 dot_S2000x128_S128x16_S2000x16_1_0_0_1_n_n 128 rfl rfl).symm]
  unfold rowDot
  refine Finset.sum_congr rfl fun k _ => ?_
  have hk := ValueIdx.contrEquiv1_symm_val dot_S2000x128_S128x16_S2000x16_1_0_0_1_n_n 128 rfl rfl k
  have el : dot_S2000x128_S128x16_S2000x16_1_0_0_1_n_n.lhsIdx i ((ValueIdx.contrEquiv1 dot_S2000x128_S128x16_S2000x16_1_0_0_1_n_n 128 rfl rfl).symm k) = ix2 (i 0) k := funext fun a => Fin.ext (by
    match a with
    | ⟨0, _⟩ => exact lhs_mm16_0 _ _
    | ⟨1, _⟩ => exact (lhs_mm16_1 _ _).trans hk)
  have er : dot_S2000x128_S128x16_S2000x16_1_0_0_1_n_n.rhsIdx i ((ValueIdx.contrEquiv1 dot_S2000x128_S128x16_S2000x16_1_0_0_1_n_n 128 rfl rfl).symm k) = ix2 k (i 1) := funext fun a => Fin.ext (by
    match a with
    | ⟨0, _⟩ => exact (rhs_mm16_0 _ _).trans hk
    | ⟨1, _⟩ => exact rhs_mm16_1 _ _)
  rw [el, er]
  rfl

/-! ## Narrowing is the identity on exact values; the stretched bias rows -/

theorem truncf_id {s : Shape} {φ ψ : FTy} (a : FVec Ideal s φ) (h : ψ.bits < φ.bits) : (truncf ψ a h : FVec Ideal s ψ) = a := rfl

theorem bias128_apply {φ : FTy} (v : FVec Ideal S1x128 φ) (i : S2000x128.Idx) :
    broadcastTo S2000x128 v broadcasts_S1x128_S2000x128 i = v (ix2 0 (i 1)) :=
  broadcastTo_apply v broadcasts_S1x128_S2000x128 i (ix2 0 (i 1)) (fun a => by
    match a with
    | ⟨0, _⟩ => rfl
    | ⟨1, _⟩ => rfl)

theorem bias16_apply {φ : FTy} (v : FVec Ideal S1x16 φ) (i : S2000x16.Idx) :
    broadcastTo S2000x16 v broadcasts_S1x16_S2000x16 i = v (ix2 0 (i 1)) :=
  broadcastTo_apply v broadcasts_S1x16_S2000x16 i (ix2 0 (i 1)) (fun a => by
    match a with
    | ⟨0, _⟩ => rfl
    | ⟨1, _⟩ => rfl)

/-! ## The bodies' stored values -/

/-- The first kernel stores the first stage of its blocks: `max (agg · Wl + b + x · Wr) 0`. -/
theorem pay0_eq (v0 v3 : Vec Ideal S2000x128 .f32) (v6 v8 : Vec Ideal S128x128 .f32) (v11 : Vec Ideal S1x128 .f32) :
    k0_pay1 (F := Ideal) v0 v3 v6 v8 v11 = layer1 v0 v3 v6 (fun j => v11 (ix2 0 (j 0))) v8 := by
  funext i
  unfold k0_pay1
  simp only [shapeCast_self]
  rw [maximumf_apply, addf_apply, addf_apply, mm128_apply, mm128_apply, bias128_apply]
  rfl

/-- The second kernel stores the second stage of its blocks: `(agg · Wl + b + h · Wr) · Wc + bc`. -/
theorem pay1_eq (v0 v3 : Vec Ideal S2000x128 .f32) (v6 v8 : Vec Ideal S128x128 .f32) (v11 : Vec Ideal S1x128 .f32)
    (v18 : Vec Ideal S128x16 .f32) (v21 : Vec Ideal S1x16 .f32) :
    k1_pay1 (F := Ideal) v0 v3 v6 v8 v11 v18 v21 = layer2 v0 v3 v6 (fun j => v11 (ix2 0 (j 0))) v8 v18 (fun j => v21 (ix2 0 (j 0))) := by
  funext i
  unfold k1_pay1
  simp only [shapeCast_self]
  rw [addf_apply, mm16_apply, bias16_apply]
  unfold layer2 rowDot
  refine congrArg₂ (· + ·) (Finset.sum_congr rfl fun k _ => ?_) rfl
  refine congrArg₂ (· * ·) ?_ rfl
  rw [truncf_apply, addf_apply, addf_apply, mm128_apply, mm128_apply, bias128_apply]
  rfl

end Cert.Sage.KernelPay

end
-- ==== Proof.Region0Value.lean ====
/-
  The first pipeline's result array, for ANY contents `V` the region is entered with: the first stage
  (`Cert.Sage.layer1`) of the arrays it finds in its operands. The grid walks the 50000 nodes in 25 tiles of 2000
  rows; at tile `t` the two node-feature windows hold rows `2000 t … 2000 t + 1999` of their arrays, the two weights
  and the bias row are held whole at every tile, and the body's stored block is the first stage of those blocks
  (`KernelPay.pay0_eq`). A row of the first stage reads only that row of its node-feature operands
  (`layer1_row`), so tile `t` writes back rows `2000 t …` of the first stage of the whole arrays; the 25 tiles cover
  every row (row `r` lies in tile `r / 2000`).
-/
import proofs.«101273_j15917148799635_1_alg».proof.Proof.Gen.KernelIdeal.Frame
import proofs.«101273_j15917148799635_1_alg».proof.Proof.KernelPay
import Idealize.ShloMosaic.Lib.Pipeline.Value

set_option maxRecDepth 16384

noncomputable section

namespace Cert.Sage.Region0

open Cert.KernelIdeal Cert.KernelIdeal.Gen Idealize.ShloMosaic Idealize.ShloMosaic.TcCoe Idealize.SL.Sem
open Idealize.ShloMosaic.ValueIdx Cert.Sage Cert.Sage.KernelPay
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 25 tiles: the node-feature windows and the result sit at block row `t`, the
    weights and the bias at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `2000 t + p` of a 50000-row array. -/
abbrev rowOf (t : Fin cfg0.N) (p : Fin 2000) : Fin 50000 :=
  ⟨2000 * t.val + p.val, by have ht : t.val < 25 := t.isLt; have := p.isLt; omega⟩

/-- The aggregated-neighbours window at tile `t` holds rows `2000 t …` of its array. -/
theorem blk_agg (c : Dev nD) (t : Fin cfg0.N) (p : Fin 2000) (k : Fin 128) :
    iblk0 V c 0 t (ix2 p k) = V c main_v31 (ix2 (rowOf t p) k) := by
  obtain ⟨e0, e1, -⟩ := idx_facts t
  show V c main_v31 (((cfg0.win 0).blk t).view.emb (ix2 p k)) = V c main_v31 _
  refine congrArg _ (funext fun a => Fin.ext ?_)
  match a with
  | ⟨0, _⟩ => show win0_0.index t (0 : Fin 2) * 2000 + 1 * p.val = 2000 * t.val + p.val; omega
  | ⟨1, _⟩ => show win0_0.index t (1 : Fin 2) * 128 + 1 * k.val = k.val; omega

/-- The node-feature window likewise. -/
theorem blk_x (c : Dev nD) (t : Fin cfg0.N) (p : Fin 2000) (k : Fin 128) :
    iblk0 V c 1 t (ix2 p k) = V c main_v10 (ix2 (rowOf t p) k) := by
  obtain ⟨-, -, e0, e1, -⟩ := idx_facts t
  show V c main_v10 (((cfg0.win 1).blk t).view.emb (ix2 p k)) = V c main_v10 _
  refine congrArg _ (funext fun a => Fin.ext ?_)
  match a with
  | ⟨0, _⟩ => show win0_1.index t (0 : Fin 2) * 2000 + 1 * p.val = 2000 * t.val + p.val; omega
  | ⟨1, _⟩ => show win0_1.index t (1 : Fin 2) * 128 + 1 * k.val = k.val; omega

/-- Each weight is held whole. -/
theorem blk_wl (c : Dev nD) (t : Fin cfg0.N) (y : S128x128.Idx) : iblk0 V c 2 t y = V c main_arg3 y := by
  obtain ⟨-, -, -, -, e0, e1, -⟩ := idx_facts t
  show V c main_arg3 (((cfg0.win 2).blk t).view.emb y) = V c main_arg3 y
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

theorem blk_wr (c : Dev nD) (t : Fin cfg0.N) (y : S128x128.Idx) : iblk0 V c 4 t y = V c main_arg5 y := by
  obtain ⟨-, -, -, -, -, -, -, -, e0, e1, -⟩ := idx_facts t
  show V c main_arg5 (((cfg0.win 4).blk t).view.emb y) = V c main_arg5 y
  refine congrArg _ (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- The bias row is held whole. -/
theorem blk_b (c : Dev nD) (t : Fin cfg0.N) (y : S1x128.Idx) : iblk0 V c 3 t y = V c main_v32 y := by
  obtain ⟨-, -, -, -, -, -, e0, e1, -⟩ := idx_facts t
  show V c main_v32 (((cfg0.win 3).blk t).view.emb y) = V c main_v32 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- WHAT TILE `t` WRITES BACK: rows `2000 t …` of the first stage of the arrays the region finds, for any bias vector
    `b` whose entries are the bias row's. -/
theorem flushed_eq (c : Dev nD) (b : (⟨1, ![128]⟩ : Shape).Idx → EReal)
    (hb : ∀ j : Fin 128, V c main_v32 (ix2 0 j) = b (ix1 j)) (t : Fin cfg0.N) :
    (dat0 (F := Ideal) V c).flushed 5 t
      = ((cfg0.win 5).blk t).view.read (Elt Ideal) (layer1 (R := 50000) (V c main_v31) (V c main_v10) (V c main_arg3) b (V c main_arg5)) := by
  show (cfg0.win 5).cut (grid0.coords t) ((dat0 (F := Ideal) V c).after 5 t) = _
  rw [after0_5]
  unfold out0_5
  rw [View.canon_unit_zero hz]
  simp only [View.ld_unit_zero (S := S2000x128) hz, View.ld_unit_zero (S := S128x128) hz, View.ld_unit_zero (S := S1x128) hz]
  rw [pay0_eq]
  obtain ⟨-, -, -, -, -, -, -, -, -, -, e0, e1⟩ := idx_facts t
  funext y
  obtain ⟨p, q, rfl⟩ : ∃ (p : Fin 2000) (q : Fin 128), y = ix2 p q := ⟨y 0, y 1, eq_ix2 y⟩
  show layer1 (iblk0 V c 0 t) (iblk0 V c 1 t) (iblk0 V c 2 t) (fun j => iblk0 V c 3 t (ix2 0 (j 0))) (iblk0 V c 4 t) (ix2 p q)
      = layer1 (R := 50000) (V c main_v31) (V c main_v10) (V c main_arg3) b (V c main_arg5) (((cfg0.win 5).blk t).view.emb (ix2 p q))
  have hemb : ((cfg0.win 5).blk t).view.emb (ix2 p q) = ix2 (rowOf t p) q := funext fun a => Fin.ext (by
    match a with
    | ⟨0, _⟩ => show win0_5.index t (0 : Fin 2) * 2000 + 1 * p.val = 2000 * t.val + p.val; omega
    | ⟨1, _⟩ => show win0_5.index t (1 : Fin 2) * 128 + 1 * q.val = q.val; omega)
  have hwl : (iblk0 V c 2 t : S128x128.Idx → EReal) = V c main_arg3 := funext (blk_wl V c t)
  have hwr : (iblk0 V c 4 t : S128x128.Idx → EReal) = V c main_arg5 := funext (blk_wr V c t)
  have hbias : (fun j : (⟨1, ![128]⟩ : Shape).Idx => iblk0 V c 3 t (ix2 0 (j 0))) = b := funext fun j => by
    rw [blk_b V c t, hb (j 0)]
    exact congrArg b (eq_ix1 j).symm
  rw [hemb, hwl, hwr, hbias]
  exact layer1_row _ _ _ _ _ _ _ p (rowOf t p) q (fun k => blk_agg V c t p k) (fun k => blk_x V c t p k)

/-- An index of the result array is in tile `t`'s block iff each coordinate is in the block's range on its axis. -/
theorem mem_blk (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v33).slice (win0_5.rect t)).set ↔ _
  rw [View.set_slice_whole, Rect.mem_set_unit]
  exact Iff.rfl

/-- Every entry of the result array is written by some tile: row `r` by tile `r / 2000`. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have htlt : (i 0).val / 2000 < 25 := by omega
  obtain ⟨-, -, -, -, -, -, -, -, -, -, e0, e1⟩ := idx_facts ⟨(i 0).val / 2000, htlt⟩
  refine ⟨⟨(i 0).val / 2000, htlt⟩, flush0_5 _, ?_⟩
  rw [mem_blk]
  intro a
  match a with
  | ⟨0, _⟩ =>
    show win0_5.index ⟨(i 0).val / 2000, htlt⟩ (0 : Fin 2) * 2000 ≤ (i 0).val ∧ (i 0).val < win0_5.index ⟨(i 0).val / 2000, htlt⟩ (0 : Fin 2) * 2000 + 2000
    have e0' : win0_5.index ⟨(i 0).val / 2000, htlt⟩ (0 : Fin 2) = (i 0).val / 2000 := e0
    omega
  | ⟨1, _⟩ =>
    show win0_5.index ⟨(i 0).val / 2000, htlt⟩ (1 : Fin 2) * 128 ≤ (i 1).val ∧ (i 1).val < win0_5.index ⟨(i 0).val / 2000, htlt⟩ (1 : Fin 2) * 128 + 128
    omega

/-- THE RESULT ARRAY of the first pipeline is the first stage of the arrays the region finds. -/
theorem final (c : Dev nD) (b : (⟨1, ![128]⟩ : Shape).Idx → EReal)
    (hb : ∀ j : Fin 128, V c main_v32 (ix2 0 j) = b (ix1 j)) :
    (dat0 (F := Ideal) V c).arrAt 5 cfg0.N
      = layer1 (R := 50000) (V c main_v31) (V c main_v10) (V c main_arg3) b (V c main_arg5) :=
  (dat0 (F := Ideal) V c).arrAt_eq_of_cover 5 _ (fun t _ => flushed_eq V c b hb t) cover

end Cert.Sage.Region0

end
-- ==== Proof.Region1Value.lean ====
/-
  The second pipeline's result array, for ANY contents `V` the region is entered with: the second stage
  (`Cert.Sage.layer2`) of the arrays it finds in its operands. The grid again walks the 50000 nodes in 25 tiles of
  2000 rows; the second aggregation and the first layer's output are read in tiles of rows, the three weights and the
  two bias rows are held whole, the body's stored `[2000, 16]` block is the second stage of those blocks
  (`KernelPay.pay1_eq`), a row of the second stage reads only that row of its node-feature operands (`layer2_row`),
  and the 25 tiles cover every row of the `[50000, 16]` result.
-/
import proofs.«101273_j15917148799635_1_alg».proof.Proof.Gen.KernelIdeal.Frame
import proofs.«101273_j15917148799635_1_alg».proof.Proof.KernelPay
import Idealize.ShloMosaic.Lib.Pipeline.Value

set_option maxRecDepth 16384

noncomputable section

namespace Cert.Sage.Region1

open Cert.KernelIdeal Cert.KernelIdeal.Gen Idealize.ShloMosaic Idealize.ShloMosaic.TcCoe Idealize.SL.Sem
open Idealize.ShloMosaic.ValueIdx Cert.Sage Cert.Sage.KernelPay
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 25 tiles: the two node-feature windows and the result sit at block row `t`, the
    weights and the bias rows at block `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Row `2000 t + p` of a 50000-row array. -/
abbrev rowOf (t : Fin cfg1.N) (p : Fin 2000) : Fin 50000 :=
  ⟨2000 * t.val + p.val, by have ht : t.val < 25 := t.isLt; have := p.isLt; omega⟩

/-- The second aggregation's window at tile `t` holds rows `2000 t …` of its array. -/
theorem blk_agg (c : Dev nD) (t : Fin cfg1.N) (p : Fin 2000) (k : Fin 128) :
    iblk1 V c 0 t (ix2 p k) = V c main_v45 (ix2 (rowOf t p) k) := by
  obtain ⟨e0, e1, -⟩ := idx_facts t
  show V c main_v45 (((cfg1.win 0).blk t).view.emb (ix2 p k)) = V c main_v45 _
  refine congrArg _ (funext fun a => Fin.ext ?_)
  match a with
  | ⟨0, _⟩ => show win1_0.index t (0 : Fin 2) * 2000 + 1 * p.val = 2000 * t.val + p.val; omega
  | ⟨1, _⟩ => show win1_0.index t (1 : Fin 2) * 128 + 1 * k.val = k.val; omega

/-- The first layer's output likewise. -/
theorem blk_h (c : Dev nD) (t : Fin cfg1.N) (p : Fin 2000) (k : Fin 128) :
    iblk1 V c 1 t (ix2 p k) = V c main_v33 (ix2 (rowOf t p) k) := by
  obtain ⟨-, -, e0, e1, -⟩ := idx_facts t
  show V c main_v33 (((cfg1.win 1).blk t).view.emb (ix2 p k)) = V c main_v33 _
  refine congrArg _ (funext fun a => Fin.ext ?_)
  match a with
  | ⟨0, _⟩ => show win1_1.index t (0 : Fin 2) * 2000 + 1 * p.val = 2000 * t.val + p.val; omega
  | ⟨1, _⟩ => show win1_1.index t (1 : Fin 2) * 128 + 1 * k.val = k.val; omega

/-- Each weight and each bias row is held whole. -/
theorem blk_wl (c : Dev nD) (t : Fin cfg1.N) (y : S128x128.Idx) : iblk1 V c 2 t y = V c main_arg6 y := by
  obtain ⟨-, -, -, -, e0, e1, -⟩ := idx_facts t
  show V c main_arg6 (((cfg1.win 2).blk t).view.emb y) = V c main_arg6 y
  refine congrArg _ (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

theorem blk_b (c : Dev nD) (t : Fin cfg1.N) (y : S1x128.Idx) : iblk1 V c 3 t y = V c main_v46 y := by
  obtain ⟨-, -, -, -, -, -, e0, e1, -⟩ := idx_facts t
  show V c main_v46 (((cfg1.win 3).blk t).view.emb y) = V c main_v46 y
  refine congrArg _ (funext fun a => Fin.ext ?_)
  match a with
  | ⟨0, _⟩ => show win1_3.index t (0 : Fin 2) * 1 + 1 * (y 0).val = (y 0).val; omega
  | ⟨1, _⟩ => show win1_3.index t (1 : Fin 2) * 128 + 1 * (y 1).val = (y 1).val; omega

theorem blk_wr (c : Dev nD) (t : Fin cfg1.N) (y : S128x128.Idx) : iblk1 V c 4 t y = V c main_arg8 y := by
  obtain ⟨-, -, -, -, -, -, -, -, e0, e1, -⟩ := idx_facts t
  show V c main_arg8 (((cfg1.win 4).blk t).view.emb y) = V c main_arg8 y
  refine congrArg _ (funext fun a => Fin.ext ?_)
  match a with
  | ⟨0, _⟩ => show win1_4.index t (0 : Fin 2) * 128 + 1 * (y 0).val = (y 0).val; omega
  | ⟨1, _⟩ => show win1_4.index t (1 : Fin 2) * 128 + 1 * (y 1).val = (y 1).val; omega

theorem blk_wc (c : Dev nD) (t : Fin cfg1.N) (y : S128x16.Idx) : iblk1 V c 5 t y = V c main_arg9 y := by
  obtain ⟨-, -, -, -, -, -, -, -, -, -, e0, e1, -⟩ := idx_facts t
  show V c main_arg9 (((cfg1.win 5).blk t).view.emb y) = V c main_arg9 y
  refine congrArg _ (funext fun a => Fin.ext ?_)
  match a with
  | ⟨0, _⟩ => show win1_5.index t (0 : Fin 2) * 128 + 1 * (y 0).val = (y 0).val; omega
  | ⟨1, _⟩ => show win1_5.index t (1 : Fin 2) * 16 + 1 * (y 1).val = (y 1).val; omega

theorem blk_bc (c : Dev nD) (t : Fin cfg1.N) (y : S1x16.Idx) : iblk1 V c 6 t y = V c main_v47 y := by
  obtain ⟨-, -, -, -, -, -, -, -, -, -, -, -, e0, e1, -⟩ := idx_facts t
  show V c main_v47 (((cfg1.win 6).blk t).view.emb y) = V c main_v47 y
  refine congrArg _ (funext fun a => Fin.ext ?_)
  match a with
  | ⟨0, _⟩ => show win1_6.index t (0 : Fin 2) * 1 + 1 * (y 0).val = (y 0).val; omega
  | ⟨1, _⟩ => show win1_6.index t (1 : Fin 2) * 16 + 1 * (y 1).val = (y 1).val; omega

/-- WHAT TILE `t` WRITES BACK: rows `2000 t …` of the second stage of the arrays the region finds, for any bias vectors
    `b`, `bc` whose entries are the bias rows'. -/
theorem flushed_eq (c : Dev nD) (b : (⟨1, ![128]⟩ : Shape).Idx → EReal) (bc : (⟨1, ![16]⟩ : Shape).Idx → EReal)
    (hb : ∀ j : Fin 128, V c main_v46 (ix2 0 j) = b (ix1 j)) (hbc : ∀ j : Fin 16, V c main_v47 (ix2 0 j) = bc (ix1 j))
    (t : Fin cfg1.N) :
    (dat1 (F := Ideal) V c).flushed 7 t
      = ((cfg1.win 7).blk t).view.read (Elt Ideal)
          (layer2 (R := 50000) (V c main_v45) (V c main_v33) (V c main_arg6) b (V c main_arg8) (V c main_arg9) bc) := by
  show (cfg1.win 7).cut (grid1.coords t) ((dat1 (F := Ideal) V c).after 7 t) = _
  rw [after1_7]
  unfold out1_7
  rw [View.canon_unit_zero hz]
  simp only [View.ld_unit_zero (S := S2000x128) hz, View.ld_unit_zero (S := S128x128) hz, View.ld_unit_zero (S := S1x128) hz,
    View.ld_unit_zero (S := S128x16) hz, View.ld_unit_zero (S := S1x16) hz]
  rw [pay1_eq]
  obtain ⟨-, -, -, -, -, -, -, -, -, -, -, -, -, -, e0, e1⟩ := idx_facts t
  funext y
  obtain ⟨p, q, rfl⟩ : ∃ (p : Fin 2000) (q : Fin 16), y = ix2 p q := ⟨y 0, y 1, eq_ix2 y⟩
  show layer2 (iblk1 V c 0 t) (iblk1 V c 1 t) (iblk1 V c 2 t) (fun j => iblk1 V c 3 t (ix2 0 (j 0))) (iblk1 V c 4 t)
        (iblk1 V c 5 t) (fun j => iblk1 V c 6 t (ix2 0 (j 0))) (ix2 p q)
      = layer2 (R := 50000) (V c main_v45) (V c main_v33) (V c main_arg6) b (V c main_arg8) (V c main_arg9) bc
          (((cfg1.win 7).blk t).view.emb (ix2 p q))
  have hemb : ((cfg1.win 7).blk t).view.emb (ix2 p q) = ix2 (rowOf t p) q := funext fun a => Fin.ext (by
    match a with
    | ⟨0, _⟩ => show win1_7.index t (0 : Fin 2) * 2000 + 1 * p.val = 2000 * t.val + p.val; omega
    | ⟨1, _⟩ => show win1_7.index t (1 : Fin 2) * 16 + 1 * q.val = q.val; omega)
  have hwl : (iblk1 V c 2 t : S128x128.Idx → EReal) = V c main_arg6 := funext (blk_wl V c t)
  have hwr : (iblk1 V c 4 t : S128x128.Idx → EReal) = V c main_arg8 := funext (blk_wr V c t)
  have hwc : (iblk1 V c 5 t : S128x16.Idx → EReal) = V c main_arg9 := funext (blk_wc V c t)
  have hbias : (fun j : (⟨1, ![128]⟩ : Shape).Idx => iblk1 V c 3 t (ix2 0 (j 0))) = b := funext fun j => by
    rw [blk_b V c t, hb (j 0)]
    exact congrArg b (eq_ix1 j).symm
  have hbiasc : (fun j : (⟨1, ![16]⟩ : Shape).Idx => iblk1 V c 6 t (ix2 0 (j 0))) = bc := funext fun j => by
    rw [blk_bc V c t, hbc (j 0)]
    exact congrArg bc (eq_ix1 j).symm
  rw [hemb, hwl, hwr, hwc, hbias, hbiasc]
  exact layer2_row _ _ _ _ _ _ _ _ _ p (rowOf t p) q (fun k => blk_agg V c t p k) (fun k => blk_h V c t p k)

/-- An index of the result array is in tile `t`'s block iff each coordinate is in the block's range on its axis. -/
theorem mem_blk (t : Fin cfg1.N) (i : S50000x16.Idx) :
    i ∈ ((cfg1.win 7).blk t).view.set ↔ ∀ a : Fin 2, win1_7.index t a * S2000x16.size a ≤ (i a).val ∧ (i a).val < win1_7.index t a * S2000x16.size a + S2000x16.size a := by
  show i ∈ ((View.whole main_v48).slice (win1_7.rect t)).set ↔ _
  rw [View.set_slice_whole, Rect.mem_set_unit]
  exact Iff.rfl

/-- Every entry of the result array is written by some tile: row `r` by tile `r / 2000`. -/
theorem cover (i : S50000x16.Idx) : ∃ t : Fin cfg1.N, (cfg1.win 7).flush t = true ∧ i ∈ ((cfg1.win 7).blk t).view.set := by
  have hi0 : (i 0).val < 50000 := (i 0).isLt
  have hi1 : (i 1).val < 16 := (i 1).isLt
  have htlt : (i 0).val / 2000 < 25 := by omega
  obtain ⟨-, -, -, -, -, -, -, -, -, -, -, -, -, -, e0, e1⟩ := idx_facts ⟨(i 0).val / 2000, htlt⟩
  refine ⟨⟨(i 0).val / 2000, htlt⟩, flush1_7 _, ?_⟩
  rw [mem_blk]
  intro a
  match a with
  | ⟨0, _⟩ =>
    show win1_7.index ⟨(i 0).val / 2000, htlt⟩ (0 : Fin 2) * 2000 ≤ (i 0).val ∧ (i 0).val < win1_7.index ⟨(i 0).val / 2000, htlt⟩ (0 : Fin 2) * 2000 + 2000
    have e0' : win1_7.index ⟨(i 0).val / 2000, htlt⟩ (0 : Fin 2) = (i 0).val / 2000 := e0
    omega
  | ⟨1, _⟩ =>
    show win1_7.index ⟨(i 0).val / 2000, htlt⟩ (1 : Fin 2) * 16 ≤ (i 1).val ∧ (i 1).val < win1_7.index ⟨(i 0).val / 2000, htlt⟩ (1 : Fin 2) * 16 + 16
    omega

/-- THE RESULT ARRAY of the second pipeline is the second stage of the arrays the region finds. -/
theorem final (c : Dev nD) (b : (⟨1, ![128]⟩ : Shape).Idx → EReal) (bc : (⟨1, ![16]⟩ : Shape).Idx → EReal)
    (hb : ∀ j : Fin 128, V c main_v46 (ix2 0 j) = b (ix1 j)) (hbc : ∀ j : Fin 16, V c main_v47 (ix2 0 j) = bc (ix1 j)) :
    (dat1 (F := Ideal) V c).arrAt 7 cfg1.N
      = layer2 (R := 50000) (V c main_v45) (V c main_v33) (V c main_arg6) b (V c main_arg8) (V c main_arg9) bc :=
  (dat1 (F := Ideal) V c).arrAt_eq_of_cover 7 _ (fun t _ => flushed_eq V c b bc hb hbc t) cover

end Cert.Sage.Region1

end
-- ==== Proof.RefLayers.lean ====
/-
  The reference's two dense stages are the two stage functions of `Spec`. The host's `dot_general` at the extended
  reals is the plain sum of products over the contracted axis; a bias vector stretched to `[1, n]` and then over the
  rows reads, at `(r, j)`, its entry `j`; `relu` is the maximum with the zero constant. So the first layer's output,
  `relu (agg · Wl + b + x · Wr)`, is `layer1` of the mean-aggregated features and the gathered embeddings, and the
  program's result, `(agg₂ · Wl₂ + b₂ + h · Wr₂) · Wc + bc`, is `layer2` of the second aggregation and the first
  layer's output.
-/
import proofs.«101273_j15917148799635_1_alg».proof.Proof.Gen.ReferenceIdeal.Read
import proofs.«101273_j15917148799635_1_alg».proof.Proof.Spec

noncomputable section

namespace Cert.Sage.RefLayers

open Cert.ReferenceIdeal Cert.ReferenceIdeal.Gen Cert.ReferenceIdeal.Read Idealize.ShloMosaic Idealize.ShloMosaic.TcCoe
open Idealize.ShloMosaic.ValueIdx Cert.Sage

variable (x0 : (⟨S50000, .i32⟩ : BufTy).Contents (Elt Ideal)) (x1 : (⟨S2x600000, .i32⟩ : BufTy).Contents (Elt Ideal)) (x2 : (⟨S50000x128, .f32⟩ : BufTy).Contents (Elt Ideal))
  (x3 : (⟨S128x128, .f32⟩ : BufTy).Contents (Elt Ideal)) (x4 : (⟨S128, .f32⟩ : BufTy).Contents (Elt Ideal)) (x5 x6 : (⟨S128x128, .f32⟩ : BufTy).Contents (Elt Ideal))
  (x7 : (⟨S128, .f32⟩ : BufTy).Contents (Elt Ideal)) (x8 : (⟨S128x128, .f32⟩ : BufTy).Contents (Elt Ideal)) (x9 : (⟨S128x16, .f32⟩ : BufTy).Contents (Elt Ideal)) (x10 : (⟨S16, .f32⟩ : BufTy).Contents (Elt Ideal))

/-- The first layer's output is the first stage of the mean-aggregated features and the gathered embeddings. -/
theorem ref_layer1 :
    val_main_v36 (F := Ideal) x0 x1 x2 x3 x4 x5
      = layer1 (R := 50000) (val_main_v29 (F := Ideal) x0 x1 x2) (val_main_v10 (F := Ideal) x0 x2) x3 x4 x5 := by
  funext i
  rw [val_main_v36_apply, val_main_v35_apply, val_main_v33_apply, val_main_v30_apply, val_main_v34_apply,
    val_main_v32_apply, val_main_v31_apply, val_main_call0_v0_apply, val_main_call0_cst_apply]
  have el : ∀ k : Fin 128, lidx_main_v30 i k = ix2 (i 0) k := fun k => funext fun a => by
    match a with
    | ⟨0, _⟩ => rfl
    | ⟨1, _⟩ => rfl
  have er : ∀ k : Fin 128, ridx_main_v30 i k = ix2 k (i 1) := fun k => funext fun a => by
    match a with
    | ⟨0, _⟩ => rfl
    | ⟨1, _⟩ => rfl
  have el' : ∀ k : Fin 128, lidx_main_v34 i k = ix2 (i 0) k := fun k => funext fun a => by
    match a with
    | ⟨0, _⟩ => rfl
    | ⟨1, _⟩ => rfl
  have er' : ∀ k : Fin 128, ridx_main_v34 i k = ix2 k (i 1) := fun k => funext fun a => by
    match a with
    | ⟨0, _⟩ => rfl
    | ⟨1, _⟩ => rfl
  have eb : idx_main_v31 (idx_main_v32 i) = ix1 (i 1) := funext fun a => by
    match a with
    | ⟨0, _⟩ => rfl
  simp only [el, er, el', er', eb]
  rfl

/-- The second layer before the read-out, at an entry. -/
theorem ref_combine2 (j : S50000x128.Idx) :
    val_main_v61 (F := Ideal) x0 x1 x2 x3 x4 x5 x6 x7 x8 j
      = combine (R := 50000) (val_main_v55 (F := Ideal) x0 x1 x2 x3 x4 x5) (val_main_v36 (F := Ideal) x0 x1 x2 x3 x4 x5) x6 x7 x8 (j 0) (j 1) := by
  rw [val_main_v61_apply, val_main_v59_apply, val_main_v56_apply, val_main_v60_apply, val_main_v58_apply, val_main_v57_apply]
  have el : ∀ k : Fin 128, lidx_main_v56 j k = ix2 (j 0) k := fun k => funext fun a => by
    match a with
    | ⟨0, _⟩ => rfl
    | ⟨1, _⟩ => rfl
  have er : ∀ k : Fin 128, ridx_main_v56 j k = ix2 k (j 1) := fun k => funext fun a => by
    match a with
    | ⟨0, _⟩ => rfl
    | ⟨1, _⟩ => rfl
  have el' : ∀ k : Fin 128, lidx_main_v60 j k = ix2 (j 0) k := fun k => funext fun a => by
    match a with
    | ⟨0, _⟩ => rfl
    | ⟨1, _⟩ => rfl
  have er' : ∀ k : Fin 128, ridx_main_v60 j k = ix2 k (j 1) := fun k => funext fun a => by
    match a with
    | ⟨0, _⟩ => rfl
    | ⟨1, _⟩ => rfl
  have eb : idx_main_v57 (idx_main_v58 j) = ix1 (j 1) := funext fun a => by
    match a with
    | ⟨0, _⟩ => rfl
  simp only [el, er, el', er', eb]
  rfl

/-- The program's result is the second stage of the second aggregation and the first layer's output. -/
theorem ref_layer2 :
    val_main_v65 (F := Ideal) x0 x1 x2 x3 x4 x5 x6 x7 x8 x9 x10
      = layer2 (R := 50000) (val_main_v55 (F := Ideal) x0 x1 x2 x3 x4 x5) (val_main_v36 (F := Ideal) x0 x1 x2 x3 x4 x5) x6 x7 x8 x9 x10 := by
  funext i
  rw [val_main_v65_apply, val_main_v62_apply, val_main_v64_apply, val_main_v63_apply]
  have el : ∀ k : Fin 128, lidx_main_v62 i k = ix2 (i 0) k := fun k => funext fun a => by
    match a with
    | ⟨0, _⟩ => rfl
    | ⟨1, _⟩ => rfl
  have er : ∀ k : Fin 128, ridx_main_v62 i k = ix2 k (i 1) := fun k => funext fun a => by
    match a with
    | ⟨0, _⟩ => rfl
    | ⟨1, _⟩ => rfl
  have eb : idx_main_v63 (idx_main_v64 i) = ix1 (i 1) := funext fun a => by
    match a with
    | ⟨0, _⟩ => rfl
  simp only [el, er, eb]
  unfold layer2
  refine congrArg₂ (· + ·) (Finset.sum_congr rfl fun k _ => ?_) rfl
  refine congrArg₂ (· * ·) ?_ rfl
  exact ref_combine2 x0 x1 x2 x3 x4 x5 x6 x7 x8 (ix2 (i 0) k)

end Cert.Sage.RefLayers

end
-- ==== Proof.KernelValue.lean ====
/-
  The kernel's program computes the reference's result. Chained from the pieces: the first pipeline's result array is
  the first stage of the mean-aggregated embeddings and the embeddings themselves (`Region0.final` at the contents the
  first host stretch leaves, `KernelHost.agg1_eq`, `x0_eq`), which is the reference's first layer (`RefLayers.ref_layer1`);
  the second host stretch aggregates that array exactly as the reference aggregates its first layer
  (`KernelHost.agg2_eq`); the second pipeline's result array is the second stage of those two (`Region1.final`), which
  is the reference's result (`RefLayers.ref_layer2`). The run names the result array by the second pipeline's
  write-backs (`GenRun.run_named`).
-/
import proofs.«101273_j15917148799635_1_alg».proof.Proof.KernelRun
import proofs.«101273_j15917148799635_1_alg».proof.Proof.KernelHost
import proofs.«101273_j15917148799635_1_alg».proof.Proof.Region0Value
import proofs.«101273_j15917148799635_1_alg».proof.Proof.Region1Value
import proofs.«101273_j15917148799635_1_alg».proof.Proof.RefLayers

set_option maxRecDepth 16384

noncomputable section

namespace Cert.Sage.KernelValue

open Cert.KernelIdeal Cert.KernelIdeal.Gen Idealize.ShloMosaic Idealize.ShloMosaic.TcCoe Idealize.SL.Sem
open Cert.Sage Cert.Sage.KernelHost
open Cert.ReferenceIdeal.Read (val_main_v36 val_main_v65)

variable (m : (ℓ : Loc nD τ sig) → Buf (Elt Ideal) ℓ) (ρ : Dev nD → PrngReg) (c : Dev nD)

/-- What the first pipeline leaves in its result array: the reference's first layer of the same arguments. -/
theorem h1_eq : (dat0 (F := Ideal) (V1 m ρ) c).arrAt 5 cfg0.N
    = val_main_v36 (F := Ideal) (a0 m c) (a1 m c) (a2 m c) (a3 m c) (a4 m c) (a5 m c) := by
  rw [Region0.final (V1 m ρ) c (a4 m c) (b1_eq m ρ c), agg1_eq, x0_eq, wl1_eq, wr1_eq]
  exact (RefLayers.ref_layer1 _ _ _ _ _ _).symm

/-- What the second pipeline leaves in the program's result array: the reference's result of the same arguments. -/
theorem result_eq : (dat1 (F := Ideal) (V3 m ρ) c).arrAt 7 cfg1.N
    = val_main_v65 (F := Ideal) (a0 m c) (a1 m c) (a2 m c) (a3 m c) (a4 m c) (a5 m c) (a6 m c) (a7 m c) (a8 m c) (a9 m c) (a10 m c) := by
  rw [Region1.final (V3 m ρ) c (a7 m c) (a10 m c) (b2_eq m ρ c) (bc_eq m ρ c),
    agg2_eq m ρ c _ (h1_eq m ρ c), h1_at3, h1_eq, wl2_eq, wr2_eq, wc_eq]
  exact (RefLayers.ref_layer2 _ _ _ _ _ _ _ _ _ _ _).symm

/-- The kernel's program runs, ends with its result array at the reference's result of its own arguments, and leaves
    the arguments as launched. -/
theorem run : θ_run defs (onTc (τ := τ) (main (F := Ideal))) ⟨m, fun _ => 0, ρ⟩ (fun r => ∀ c : Dev nD,
      r.2.mem ((c.tc : Thread nD τ).loc main_v48) = val_main_v65 (F := Ideal) (a0 m c) (a1 m c) (a2 m c) (a3 m c) (a4 m c) (a5 m c) (a6 m c) (a7 m c) (a8 m c) (a9 m c) (a10 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (result_eq m ρ c), (h c).2⟩) (Cert.KernelIdeal.GenRun.run_named m ρ)

end Cert.Sage.KernelValue

end
-- ==== Proof.lean ====
/-
  A two-layer mean-aggregation graph convolution with a 16-class linear read-out over 50000 nodes and 600000 edges,
  against its plain array reference, over the extended reals.

  Both programs gather the node embeddings, and for each layer gather the source rows along the edges, sum them per
  target node and take the mean over the clamped in-degree. The kernel's program scales the sums by `1 / max deg 1`
  where the reference divides by `max deg 1`: the same number at every entry because `max deg 1` is at least one
  (Proof/MeanScale.lean; no finiteness is needed). The dense part — `relu (agg · Wl + b + x · Wr)`, then
  `(agg₂ · Wl₂ + b₂ + h · Wr₂) · Wc + bc` — the kernel computes in two pipelines over 25 tiles of 2000 nodes, every matrix
  operand narrowed to bf16 first (the identity on exact values), where the reference multiplies whole matrices: a row of
  either stage reads only that row of the node features, so the tiles assemble to the whole-array stage
  (Proof/Spec.lean, KernelPay.lean, Region0Value.lean, Region1Value.lean, RefLayers.lean). The gathers and scatter-adds
  are the same operations on both sides and are never opened (Proof/KernelHost.lean). The idealization rewrote nothing,
  so its claim is `True`.
-/
import proofs.«101273_j15917148799635_1_alg».proof.Defs
import proofs.«101273_j15917148799635_1_alg».proof.Proof.Gen.Kernel
import proofs.«101273_j15917148799635_1_alg».proof.Proof.Gen.Kernel.Skeleton
import proofs.«101273_j15917148799635_1_alg».proof.Proof.Gen.Kernel.Launch
import proofs.«101273_j15917148799635_1_alg».proof.Proof.Gen.Kernel.Points
import proofs.«101273_j15917148799635_1_alg».proof.Proof.Gen.Kernel.Frame
import proofs.«101273_j15917148799635_1_alg».proof.Proof.Gen.KernelIdeal
import proofs.«101273_j15917148799635_1_alg».proof.Proof.Gen.KernelIdeal.Skeleton
import proofs.«101273_j15917148799635_1_alg».proof.Proof.Gen.KernelIdeal.Launch
import proofs.«101273_j15917148799635_1_alg».proof.Proof.Gen.KernelIdeal.Points
import proofs.«101273_j15917148799635_1_alg».proof.Proof.Gen.KernelIdeal.Frame
import proofs.«101273_j15917148799635_1_alg».proof.Proof.Gen.ReferenceIdeal
import proofs.«101273_j15917148799635_1_alg».proof.Proof.Gen.Pre_finite_inputs
import proofs.«101273_j15917148799635_1_alg».proof.Proof.Gen.ReferenceIdeal.Run
import proofs.«101273_j15917148799635_1_alg».proof.Proof.Gen.ReferenceIdeal.Read
import proofs.«101273_j15917148799635_1_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the reference's last stage of the (agreeing) arguments in their result arrays. -/
theorem algebraic : Cert.algebraic_KernelIdeal_ReferenceIdeal := by
  intro m ρ m' ρ' _ hagree
  refine ⟨fun c => Cert.ReferenceIdeal.Read.val_main_v65 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.Sage.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v65_eq]
  obtain ⟨h0, h1, h2, h3, h4, h5, h6, h7, h8, h9, h10⟩ := hagree c
  rw [h0, h1, h2, h3, h4, h5, h6, h7, h8, h9, h10]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
